-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 98
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1, .i32⟩
  | .hbm, ⟨64, _⟩ => ⟨S_, .i32⟩
  | .hbm, ⟨65, _⟩ => ⟨S1600000x1, .i32⟩
  | .hbm, ⟨66, _⟩ => ⟨S1600000x1, .i1⟩
  | .hbm, ⟨67, _⟩ => ⟨S1x1, .i32⟩
  | .hbm, ⟨68, _⟩ => ⟨S1600000x1, .i32⟩
  | .hbm, ⟨69, _⟩ => ⟨S1600000x1, .i1⟩
  | .hbm, ⟨70, _⟩ => ⟨S1600000x1, .i1⟩
  | .hbm, ⟨71, _⟩ => ⟨S_, .i1⟩
  | .hbm, ⟨72, _⟩ => ⟨S1600000, .i1⟩
  | .hbm, ⟨73, _⟩ => ⟨S1600000x128, .f32⟩
  | .hbm, ⟨74, _⟩ => ⟨S1600000x128, .i1⟩
  | .hbm, ⟨75, _⟩ => ⟨S_, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S128x128, .f32⟩
  | .hbm, ⟨95, _⟩ => ⟨S128x128, .f32⟩
  | .hbm, ⟨96, _⟩ => ⟨S1x128, .f32⟩
  | .hbm, ⟨97, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v21 : Ref sig .tc := ⟨.hbm, 77, rfl⟩
abbrev main_cst_3 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_4 : Ref sig .tc := ⟨.hbm, 82, rfl⟩
abbrev main_v25 : Ref sig .tc := ⟨.hbm, 83, rfl⟩
abbrev main_cst_5 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_6 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One GraphSAGE layer as a function of whole arrays, on the extended reals.

  For node features `x : [N, D]`, aggregated neighbour features `a : [N, D]`, two weight matrices
  `wl, wr : [D, D]` (already transposed: the contracted axis is their first) and a bias row `b : [1, D]`,
  the layer's pre-activation at node `p` and channel `q` is

      (∑ₖ a[p,k] · wl[k,q]  +  ∑ₖ x[p,k] · wr[k,q])  +  b[0,q],

  with N = 100000 and D = 128.  `relu` clamps below at zero.  Both programs compute two such layers, the first
  followed by `relu`; they differ only in the order in which the three summands are added, and
  addition of extended reals is commutative and associative, so no finiteness is needed.
-/
import Idealize.ShloMosaic.PureOps.Ideal
import Idealize.ShloMosaic.Lib.ValueIdx

noncomputable section

namespace Cert.Sage

open Idealize.ShloMosaic Idealize.ShloMosaic.ValueIdx

/-- Node-by-channel arrays `[100000, 128]`. -/
abbrev Rows : Shape := ⟨2, ![100000, 128]⟩
/-- Square weight matrices `[128, 128]`. -/
abbrev Sq : Shape := ⟨2, ![128, 128]⟩
/-- A bias row `[1, 128]`. -/
abbrev BiasRow : Shape := ⟨2, ![1, 128]⟩

/-- The layer's pre-activation at node `p`, channel `q`. -/
def linAt (a x : Rows.Idx → EReal) (wl wr : Sq.Idx → EReal) (b : BiasRow.Idx → EReal) (p : Fin 100000) (q : Fin 128) : EReal :=
  ((∑ k : Fin 128, a (ix2 p k) * wl (ix2 k q)) + ∑ k : Fin 128, x (ix2 p k) * wr (ix2 k q)) + b (ix2 (0 : Fin 1) q)

/-- The layer's pre-activation as a whole array. -/
def lin (a x : Rows.Idx → EReal) (wl wr : Sq.Idx → EReal) (b : BiasRow.Idx → EReal) : Rows.Idx → EReal :=
  fun i => linAt a x wl wr b (i 0) (i 1)

theorem lin_ix2 (a x : Rows.Idx → EReal) (wl wr : Sq.Idx → EReal) (b : BiasRow.Idx → EReal) (p : Fin 100000) (q : Fin 128) :
    lin a x wl wr b (ix2 p q) = linAt a x wl wr b p q := rfl

/-- The activation: the maximum with zero, entry by entry. -/
def relu (h : Rows.Idx → EReal) : Rows.Idx → EReal := fun i => max (h i) 0

theorem relu_apply (h : Rows.Idx → EReal) (i : Rows.Idx) : relu h i = max (h i) 0 := rfl

end Cert.Sage

end
-- ==== Proof.KernelRegion.lean ====
/-
  The two kernel regions' result arrays as functions of the arrays each region finds on entry.

  Each region tiles a [100000,128] output by twenty row blocks of 5000.  At a grid point the body holds the point's
  row block of the aggregate and of the features, the two whole weight matrices and the bias row, and stores

      (agg · W_l  +  x · W_r)  +  bias          (region 0 then clamps below at zero),

  the products being contractions over the 128 channels.  Read at an element this is the GraphSAGE layer's
  pre-activation `Cert.Sage.linAt` at the element's row of the whole array: row `p` of block `t` is row
  `5000 t + p`.  Every row lies in exactly the block of the point `row / 5000`, and every point writes its block
  back, so the whole result array ends at `Cert.Sage.lin` (region 0: its `relu`) of the entry arrays.
-/
import proofs.«407156_j39496519254558_1_alg».proof.Proof.Gen.KernelIdeal.Frame
import proofs.«407156_j39496519254558_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-! ## The contraction of a row block with a weight matrix, read at an element -/

/-- The left operand's index at output `(p, q)` and contraction position `k`: its row is the output's row … -/
theorem contract_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column the contraction position; -/
theorem contract_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand's row is the contraction position … -/
theorem contract_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and its column the output's column. -/
theorem contract_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row block times a weight matrix into a zero accumulator, at `(p, q)`: the sum over the 128 channels. -/
theorem contract_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact contract_lhs_0 _ _
    | ⟨1, _⟩ => exact (contract_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (contract_rhs_0 _ _).trans hk
    | ⟨1, _⟩ => exact contract_rhs_1 _ _)
  rw [el, er]

/-! ## The bodies' stored values at an element -/

/-- Region 0's stored block at row `p`, channel `q`, from the blocks the body loads. -/
theorem stored0_apply (x0 x1 : Vec Ideal S5000x128 .f32) (w2 w4 : Vec Ideal S128x128 .f32) (b3 : Vec Ideal S1x128 .f32)
    (p : Fin 5000) (q : Fin 128) :
    k0_pay1 (F := Ideal) x0 x1 w2 w4 b3 (ix2 p q)
      = max (((∑ k : Fin 128, x0 (ix2 p k) * w2 (ix2 k q)) + ∑ k : Fin 128, x1 (ix2 p k) * w4 (ix2 k q)) + b3 (ix2 (0 : Fin 1) q)) 0 := by
  unfold k0_pay1
  simp only [shapeCast_self]
  rw [maximumf_apply, addf_apply, addf_apply, contract_apply, contract_apply, broadcastTo_1b_ab_apply, broadcast_apply]
  simp only [truncf_apply]
  rw [show (Scalar.ofBits (F := Ideal) .f32 0x00000000#32 : EReal) = 0 from Ideal.ofBits_zero_f32]

/-- Region 1's stored block at row `p`, channel `q`: the same without the clamp. -/
theorem stored1_apply (x0 x1 : Vec Ideal S5000x128 .f32) (w2 w4 : Vec Ideal S128x128 .f32) (b3 : Vec Ideal S1x128 .f32)
    (p : Fin 5000) (q : Fin 128) :
    k1_pay1 (F := Ideal) x0 x1 w2 w4 b3 (ix2 p q)
      = ((∑ k : Fin 128, x0 (ix2 p k) * w2 (ix2 k q)) + ∑ k : Fin 128, x1 (ix2 p k) * w4 (ix2 k q)) + b3 (ix2 (0 : Fin 1) q) := by
  unfold k1_pay1
  simp only [shapeCast_self]
  rw [addf_apply, addf_apply, contract_apply, contract_apply, broadcastTo_1b_ab_apply]
  simp only [truncf_apply]

/-- One element of region 0's stored block is the clamped layer at the element's row `P` of the whole arrays, when the
    loaded blocks are those rows of the aggregate and the features, the weight matrices and the bias row. -/
theorem stored0_eq_layer (x0 x1 : Vec Ideal S5000x128 .f32) (w2 w4 : Vec Ideal S128x128 .f32) (b3 : Vec Ideal S1x128 .f32)
    (a x : Cert.Sage.Rows.Idx → EReal) (wl wr : Cert.Sage.Sq.Idx → EReal) (b : Cert.Sage.BiasRow.Idx → EReal)
    (p : Fin 5000) (q : Fin 128) (P : Fin 100000)
    (h0 : ∀ k : Fin 128, x0 (ix2 p k) = a (ix2 P k)) (h1 : ∀ k : Fin 128, x1 (ix2 p k) = x (ix2 P k))
    (h2 : ∀ k : Fin 128, w2 (ix2 k q) = wl (ix2 k q)) (h4 : ∀ k : Fin 128, w4 (ix2 k q) = wr (ix2 k q))
    (h3 : b3 (ix2 (0 : Fin 1) q) = b (ix2 (0 : Fin 1) q)) :
    k0_pay1 (F := Ideal) x0 x1 w2 w4 b3 (ix2 p q) = Cert.Sage.relu (Cert.Sage.lin a x wl wr b) (ix2 P q) := by
  rw [stored0_apply, Cert.Sage.relu_apply, Cert.Sage.lin_ix2]
  unfold Cert.Sage.linAt
  simp only [h0, h1, h2, h4, h3]

/-- One element of region 1's stored block is the layer at the element's row `P` of the whole arrays. -/
theorem stored1_eq_layer (x0 x1 : Vec Ideal S5000x128 .f32) (w2 w4 : Vec Ideal S128x128 .f32) (b3 : Vec Ideal S1x128 .f32)
    (a x : Cert.Sage.Rows.Idx → EReal) (wl wr : Cert.Sage.Sq.Idx → EReal) (b : Cert.Sage.BiasRow.Idx → EReal)
    (p : Fin 5000) (q : Fin 128) (P : Fin 100000)
    (h0 : ∀ k : Fin 128, x0 (ix2 p k) = a (ix2 P k)) (h1 : ∀ k : Fin 128, x1 (ix2 p k) = x (ix2 P k))
    (h2 : ∀ k : Fin 128, w2 (ix2 k q) = wl (ix2 k q)) (h4 : ∀ k : Fin 128, w4 (ix2 k q) = wr (ix2 k q))
    (h3 : b3 (ix2 (0 : Fin 1) q) = b (ix2 (0 : Fin 1) q)) :
    k1_pay1 (F := Ideal) x0 x1 w2 w4 b3 (ix2 p q) = Cert.Sage.lin a x wl wr b (ix2 P q) := by
  rw [stored1_apply, Cert.Sage.lin_ix2]
  unfold Cert.Sage.linAt
  simp only [h0, h1, h2, h4, h3]

/-- The bodies' accesses start at the staging buffers' origin. -/
theorem origin : (![0, 0] : Fin 2 → Nat) = fun _ => 0 := funext fun a => by fin_cases a <;> rfl

/-! ## Region 0: what a point writes back, and the whole array -/

section Region0

variable (V : (c : Dev nD) → (b : Ref sig .tc) → Buf (Elt Ideal) ((c : Thread nD τ).loc b))

/-- The block indices over region 0's grid: the aggregate's, the features' and the output's row block is the point's
    number, and the weight matrices and the bias row are one block each. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is rows `5000 t … 5000 t + 4999` of the clamped layer of the entry arrays: row `p` of each
    loaded row block is row `5000 t + p` of its array, and the weight and bias blocks are their whole arrays. -/
theorem flushed0_eq (c : Dev nD) (t : Fin cfg0.N) :
    (dat0 (F := Ideal) V c).flushed 5 t = ((cfg0.win 5).blk t).view.read (Elt Ideal)
      (Cert.Sage.relu (Cert.Sage.lin (V c main_v16) (V c main_arg0) (V c main_v17) (V c main_v18) (V c main_v19))) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51⟩ := index_facts0 t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = (Cert.Sage.relu (Cert.Sage.lin (V c main_v16) (V c main_arg0) (V c main_v17) (V c main_v18) (V c main_v19))) (((cfg0.win 5).blk t).view.emb (ix2 p q))
  have hrow : ((cfg0.win 5).blk t).view.emb (ix2 p q) = ix2 (⟨t.val * 5000 + p.val, by have := p.isLt; omega⟩ : Fin 100000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  rw [hrow]
  refine stored0_eq_layer _ _ _ _ _ _ _ _ _ _ p q _ (fun k => ?_) (fun k => ?_) (fun k => ?_) (fun k => ?_) ?_
  · show V c main_v16 (((cfg0.win 0).blk t).view.emb (ix2 p k)) = V c main_v16 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_arg0 (((cfg0.win 1).blk t).view.emb (ix2 p k)) = V c main_arg0 _
    refine congrArg _ (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 128 + 1 * k.val = k.val; rw [e11]; omega
  · show V c main_v17 (((cfg0.win 2).blk t).view.emb (ix2 k q)) = V c main_v17 _
    refine congrArg _ (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  · show V c main_v18 (((cfg0.win 4).blk t).view.emb (ix2 k q)) = V c main_v18 _
    refine congrArg _ (funext fun a => Fin.ext ?_)
    match a with
    | ⟨0, _⟩ => show win0_4.index t (0 : Fin 2) * 128 + 1 * k.val = k.val; rw [e40]; omega
    | ⟨1, _⟩ => show win0_4.index t (1 : Fin 2) * 128 + 1 * q.val = q.val; rw [e41]; omega
  · show V c main_v19 (((cfg0.win 3).blk t).view.emb (ix2 (0 : Fin 1) q)) = V c main_v19 _
    refine congrArg _ (funext fun a => Fin.ext ?_)
    match a with
    | ⟨0, _⟩ => show win0_3.index t (0 : Fin 2) * 1 + 1 * (0 : Fin 1).val = (0 : Fin 1).val; rw [e30]; rfl
    | ⟨1, _⟩ => show win0_3.index t (1 : Fin 2) * 128 + 1 * q.val = q.val; rw [e31]; omega

/-- An index of the result array is in point `t`'s block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every row `r` lies in the block of the point `r / 5000`, and every point writes its block back. -/
theorem covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨e00, e01, e10, e11, e20, e21, e30, e31, e40, e41, e50, e51⟩ := index_facts0 ⟨(i 0).val / 5000, hlt⟩
  refine ⟨⟨(i 0).val / 5000, hlt⟩, flush0_5 _, ?_⟩
  rw [mem_block0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e51]; omega

/-- THE RESULT ARRAY after region 0: the clamped layer of the arrays the region finds on entry. -/
theorem region0_value (c : Dev nD) :
    (dat0 (F := Ideal) V c).arrAt 5 cfg0.N
      = Cert.Sage.relu (Cert.Sage.lin (V c main_v16) (V c main_arg0) (V c main_v17) (V c main_v18) (V c main_v19)) :=
  (dat0 (F := Ideal) V c).arrAt_eq_of_cover 5 _ (fun t _ => flushed0_eq V c t) (covered0)

end Region0

/-! ## Region 1: what a point writes back, and the whole array -/

section Region1

variable (V : (c : Dev nD) → (b : Ref sig .tc) → Buf (Elt Ideal) ((c : Thread nD τ).loc b))

/-- The block indices over region 1's grid: the aggregate's, the features' and the output's row block is the point's
    number, and the weight matrices and the bias row are one block each. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is rows `5000 t … 5000 t + 4999` of the layer of the entry arrays: row `p` of each
    loaded row block is row `5000 t + p` of its array, and the weight and bias blocks are their whole arrays. -/
theorem flushed1_eq (c : Dev nD) (t : Fin cfg1.N) :
    (dat1 (F := Ideal) V c).flushed 5 t = ((cfg1.win 5).blk t).view.read (Elt Ideal)
      (Cert.Sage.lin (V c main_v33) (V c main_v20) (V c main_v34) (V c main_v35) (V c main_v36)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨e00, e01, e10, e11, e20, e21, e30, e31, e40, e41, e50, e51⟩ := index_facts1 t
  have hN : cfg1.N = 20 := N_1
  have ht : t.val < 20 := hN ▸ t.isLt
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = (Cert.Sage.lin (V c main_v33) (V c main_v20) (V c main_v34) (V c main_v35) (V c main_v36)) (((cfg1.win 5).blk t).view.emb (ix2 p q))
  have hrow : ((cfg1.win 5).blk t).view.emb (ix2 p q) = ix2 (⟨t.val * 5000 + p.val, by have := p.isLt; omega⟩ : Fin 100000) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 128 + 1 * q.val = q.val; rw [e51]; omega
  rw [hrow]
  refine stored1_eq_layer _ _ _ _ _ _ _ _ _ _ p q _ (fun k => ?_) (fun k => ?_) (fun k => ?_) (fun k => ?_) ?_
  · show V c main_v33 (((cfg1.win 0).blk t).view.emb (ix2 p k)) = V c main_v33 _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_v20 (((cfg1.win 1).blk t).view.emb (ix2 p k)) = V c main_v20 _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  · show V c main_v34 (((cfg1.win 2).blk t).view.emb (ix2 k q)) = V c main_v34 _
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  · show V c main_v35 (((cfg1.win 4).blk t).view.emb (ix2 k q)) = V c main_v35 _
    refine congrArg _ (funext fun a => Fin.ext ?_)
    match a with
    | ⟨0, _⟩ => show win1_4.index t (0 : Fin 2) * 128 + 1 * k.val = k.val; rw [e40]; omega
    | ⟨1, _⟩ => show win1_4.index t (1 : Fin 2) * 128 + 1 * q.val = q.val; rw [e41]; omega
  · show V c main_v36 (((cfg1.win 3).blk t).view.emb (ix2 (0 : Fin 1) q)) = V c main_v36 _
    refine congrArg _ (funext fun a => Fin.ext ?_)
    match a with
    | ⟨0, _⟩ => show win1_3.index t (0 : Fin 2) * 1 + 1 * (0 : Fin 1).val = (0 : Fin 1).val; rw [e30]; rfl
    | ⟨1, _⟩ => show win1_3.index t (1 : Fin 2) * 128 + 1 * q.val = q.val; rw [e31]; omega

/-- An index of the result array is in point `t`'s block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every row `r` lies in the block of the point `r / 5000`, and every point writes its block back. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨e00, e01, e10, e11, e20, e21, e30, e31, e40, e41, e50, e51⟩ := index_facts1 ⟨(i 0).val / 5000, hlt⟩
  refine ⟨⟨(i 0).val / 5000, hlt⟩, flush1_5 _, ?_⟩
  rw [mem_block1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e51]; omega

/-- THE RESULT ARRAY after region 1: the layer of the arrays the region finds on entry. -/
theorem region1_value (c : Dev nD) :
    (dat1 (F := Ideal) V c).arrAt 5 cfg1.N
      = Cert.Sage.lin (V c main_v33) (V c main_v20) (V c main_v34) (V c main_v35) (V c main_v36) :=
  (dat1 (F := Ideal) V c).arrAt_eq_of_cover 5 _ (fun t _ => flushed1_eq V c t) (covered1)

end Region1

end Cert.KernelIdeal.RegionValue

end
-- ==== Proof.Aggregate.lean ====
/-
  The mean aggregation of a GraphSAGE layer, as the kernel's program spells it on the host.

  `edge_index : i32[2, E]` holds a source row and a destination row (E = 1600000).  A source index `s` is first
  wrapped as NumPy does, `s + N` when `s < 0` (N = 100000).  The kernel's program then gathers row `wrap s` of the
  features where `0 ≤ wrap s ≤ N − 1` and the not-a-number word elsewhere; the gathered rows are summed into their
  destination nodes, and each node's sum is divided by `max (number of incoming edges) 1`.

  `meanOver g ei` is that last stretch as ONE function of the gathered rows `g`: both programs apply it to the same
  destinations, so their aggregations agree as soon as their gathered rows do.
-/
import proofs.«407156_j39496519254558_1_alg».proof.Proof.Gen.KernelIdeal
import Idealize.ShloMosaic.PureOps.Ideal

noncomputable section

namespace Cert.KernelIdeal.Agg

open Cert.KernelIdeal Cert.KernelIdeal.Gen Idealize.ShloMosaic

variable {F : FTy → Type} [FloatOps F]

/-- The source node of every edge: row 0 of `edge_index`. -/
def srcOf (ei : IVec S2x1600000 32) : IVec S1600000 32 :=
  shapeCast S1600000 (extractStridedSlice S1x1600000 ![0, 0] ei slices_S2x1600000_S1x1600000_0_0) shapeCasts_S1x1600000_S1600000

/-- The destination node of every edge: row 1 of `edge_index`. -/
def dstOf (ei : IVec S2x1600000 32) : IVec S1600000 32 :=
  shapeCast S1600000 (extractStridedSlice S1x1600000 ![1, 0] ei slices_S2x1600000_S1x1600000_1_0) shapeCasts_S1x1600000_S1600000

/-- The wrapped source index of every edge (`s + 100000` when `s` is negative, else `s`), as a column. -/
def wrapCol (ei : IVec S2x1600000 32) : IVec S1600000x1 32 :=
  broadcastInDim S1600000x1 ![0] bcast_S1600000_S1600000x1_0
    (select (cmpi .slt (srcOf ei) (broadcastInDim S1600000 ![] bcast_S_S1600000 (constantI S_ 32 0#32)))
      (addi (srcOf ei) (broadcastInDim S1600000 ![] bcast_S_S1600000 (constantI S_ 32 100000#32)))
      (srcOf ei))

/-- Per edge: is the wrapped source index inside `[0, 99999]`? -/
def inRange (ei : IVec S2x1600000 32) : IVec S1600000 1 :=
  Host.reduce IntOp.andi
    (andi (cmpi .sge (wrapCol ei) (broadcastInDim S1600000x1 ![] bcast_S_S1600000x1 (constantI S_ 32 0#32)))
      (cmpi .sle (wrapCol ei)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows a plain gather reads: row `wrap s` of `x` for every edge (an index outside the array is clamped). -/
def gatherRows (x : FVec F S100000x128 .f32) (ei : IVec S2x1600000 32) : FVec F S1600000x128 .f32 :=
  Host.gather gather_S100000x128_S1600000x1_S1600000x128_1_0_n_n_0_1_1128 x (wrapCol ei)

/-- The rows the kernel's program gathers: the plain gather where the wrapped index is in range, the
    not-a-number word elsewhere. -/
def takeRows (x : FVec F S100000x128 .f32) (ei : IVec S2x1600000 32) : FVec F S1600000x128 .f32 :=
  select (broadcastInDim S1600000x128 ![0] bcast_S1600000_S1600000x128_0 (inRange ei))
    (gatherRows x ei)
    (broadcastInDim S1600000x128 ![] bcast_S_S1600000x128 (constant S_ .f32 0x7FC00000#32))

/-- The mean over incoming edges of per-edge rows `g`: the rows summed into their destination nodes, each node's sum
    divided by `max (its number of incoming edges) 1`. -/
def meanOver (g : FVec F S1600000x128 .f32) (ei : IVec S2x1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dstOf ei))
      g)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstOf ei))
            (broadcastInDim S1600000 ![] bcast_S_S1600000 (constant S_ .f32 0x3F800000#32)))
          (broadcastInDim S100000 ![] bcast_S_S100000 (constant S_ .f32 0x3F800000#32)))))

/-- Where every wrapped source index is in range, the kernel's gather is the plain gather. -/
theorem takeRows_eq_gatherRows (x : FVec F S100000x128 .f32) (ei : IVec S2x1600000 32)
    (h : inRange ei = fun _ => 1#1) : takeRows x ei = gatherRows x ei := by
  unfold takeRows
  rw [h]
  funext i
  rfl

end Cert.KernelIdeal.Agg

end
-- ==== Proof.Model.lean ====
/-
  Both programs as ONE function of the arguments: two GraphSAGE layers, the first followed by a maximum with zero.

  `twoLayer rows x ei wl1 b1 wr1 wl2 b2 wr2`: with `a₁ = meanOver (rows x ei) ei` the mean aggregation of the input
  features and `h = relu (lin a₁ x wl1ᵀ wr1ᵀ b1)`, the result is `lin a₂ h wl2ᵀ wr2ᵀ b2` where `a₂ = meanOver (rows h ei) ei`.
  The parameter `rows` is the gather that feeds the aggregation: the kernel's program uses the masked gather
  `takeRows`, the reference the plain one `gatherRows`; they agree where every wrapped source index is in range.
-/
import proofs.«407156_j39496519254558_1_alg».proof.Proof.Spec
import proofs.«407156_j39496519254558_1_alg».proof.Proof.Aggregate

noncomputable section

namespace Cert.KernelIdeal.Agg

open Cert.KernelIdeal Cert.KernelIdeal.Gen Idealize.ShloMosaic

/-- A weight matrix transposed, as both programs do on the host. -/
def tr (w : FVec Ideal S128x128 .f32) : FVec Ideal S128x128 .f32 :=
  transpose S128x128 [1, 0] w transposes_S128x128_S128x128_1_0

/-- A bias vector laid out as a `[1, 128]` row. -/
def row (b : FVec Ideal S128 .f32) : FVec Ideal S1x128 .f32 :=
  shapeCast S1x128 b shapeCasts_S128_S1x128

/-- The first layer's output: the activation of the layer applied to the mean aggregation of `x` and to `x`. -/
def hidden (rows : FVec Ideal S100000x128 .f32 → IVec S2x1600000 32 → FVec Ideal S1600000x128 .f32)
    (x : FVec Ideal S100000x128 .f32) (ei : IVec S2x1600000 32)
    (wl1 : FVec Ideal S128x128 .f32) (b1 : FVec Ideal S128 .f32) (wr1 : FVec Ideal S128x128 .f32) : FVec Ideal S100000x128 .f32 :=
  Cert.Sage.relu (Cert.Sage.lin (meanOver (F := Ideal) (rows x ei) ei) x (tr wl1) (tr wr1) (row b1))

/-- The two layers. -/
def twoLayer (rows : FVec Ideal S100000x128 .f32 → IVec S2x1600000 32 → FVec Ideal S1600000x128 .f32)
    (x : FVec Ideal S100000x128 .f32) (ei : IVec S2x1600000 32)
    (wl1 : FVec Ideal S128x128 .f32) (b1 : FVec Ideal S128 .f32) (wr1 : FVec Ideal S128x128 .f32)
    (wl2 : FVec Ideal S128x128 .f32) (b2 : FVec Ideal S128 .f32) (wr2 : FVec Ideal S128x128 .f32) : FVec Ideal S100000x128 .f32 :=
  Cert.Sage.lin (meanOver (F := Ideal) (rows (hidden rows x ei wl1 b1 wr1) ei) ei) (hidden rows x ei wl1 b1 wr1) (tr wl2) (tr wr2) (row b2)

/-- Where every wrapped source index is in range the two gathers agree on every feature array, so the two-layer
    function over the masked gather is the one over the plain gather. -/
theorem twoLayer_take_eq_gather (x : FVec Ideal S100000x128 .f32) (ei : IVec S2x1600000 32)
    (wl1 : FVec Ideal S128x128 .f32) (b1 : FVec Ideal S128 .f32) (wr1 : FVec Ideal S128x128 .f32)
    (wl2 : FVec Ideal S128x128 .f32) (b2 : FVec Ideal S128 .f32) (wr2 : FVec Ideal S128x128 .f32)
    (h : inRange ei = fun _ => 1#1) :
    twoLayer (takeRows (F := Ideal)) x ei wl1 b1 wr1 wl2 b2 wr2 = twoLayer (gatherRows (F := Ideal)) x ei wl1 b1 wr1 wl2 b2 wr2 := by
  have e : ∀ y : FVec Ideal S100000x128 .f32, takeRows (F := Ideal) y ei = gatherRows (F := Ideal) y ei :=
    fun y => takeRows_eq_gatherRows y ei h
  unfold twoLayer hidden
  simp only [e]

end Cert.KernelIdeal.Agg

end
-- ==== Proof.KernelHost.lean ====
/-
  What region 0 (the first layer) finds in its windows' arrays, for any contents `W` of the buffers at launch.

  The host program before region 0 is three stretches: the source and destination rows of `edge_index` as columns; the
  gather of the source nodes' feature rows (a row whose wrapped index is out of range replaced by the not-a-number
  word); and the mean over incoming edges of those rows, beside the transposes of the two weight matrices and the bias
  laid out as a row.  Each stretch is read as a function of the contents before it, over the source column `s` and
  the destination column `d`; composed, window 0 holds `meanOver (takeRows x ei) ei`.
-/
import proofs.«407156_j39496519254558_1_alg».proof.Proof.Gen.KernelIdeal.Frame
import proofs.«407156_j39496519254558_1_alg».proof.Proof.Model
import Idealize.ShloMosaic.Lib.StableHlo.Run

set_option maxRecDepth 16384
set_option Elab.async false

noncomputable section

namespace Cert.KernelIdeal.HostValue

open Cert.KernelIdeal Cert.KernelIdeal.Gen Idealize.ShloMosaic Idealize.ShloMosaic.TcCoe Idealize.SL.Sem
open Idealize.ShloMosaic.StableHlo

/-! ## The aggregation over a source column `s` and a destination column `d` -/

/-- The wrapped index column of a source column. -/
def wrapColS (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32)))
      s)

/-- Per edge: is the wrapped index inside `[0, 99999]`? -/
def inRangeS (s : IVec S1600000 32) : IVec S1600000 1 :=
  Host.reduce IntOp.andi
    (andi (cmpi .sge (wrapColS s) (broadcastInDim S1600000x1 ![] bcast_S_S1600000x1 (constantI S_ 32 0#32)))
      (cmpi .sle (wrapColS s)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The masked gather of the rows of `x` at the wrapped indices. -/
def takeRowsS (x : FVec Ideal S100000x128 .f32) (s : IVec S1600000 32) : FVec Ideal S1600000x128 .f32 :=
  select (broadcastInDim S1600000x128 ![0] bcast_S1600000_S1600000x128_0 (inRangeS s))
    (Host.gather gather_S100000x128_S1600000x1_S1600000x128_1_0_n_n_0_1_1128 x (wrapColS s))
    (broadcastInDim S1600000x128 ![] bcast_S_S1600000x128 (constant (F := Ideal) S_ .f32 0x7FC00000#32))

/-- The mean over incoming edges of per-edge rows `g`, the edges' destinations in the column `d`. -/
def meanOverS (g : FVec Ideal S1600000x128 .f32) (d : IVec S1600000 32) : FVec Ideal S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      g)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- At the source column of `edge_index` the masked gather is `takeRows`. -/
theorem takeRowsS_src (x : FVec Ideal S100000x128 .f32) (ei : IVec S2x1600000 32) :
    takeRowsS x (Agg.srcOf ei) = Agg.takeRows (F := Ideal) x ei := rfl

/-- At the destination column of `edge_index` the mean is `meanOver`. -/
theorem meanOverS_dst (g : FVec Ideal S1600000x128 .f32) (ei : IVec S2x1600000 32) :
    meanOverS g (Agg.dstOf ei) = Agg.meanOver (F := Ideal) g ei := rfl

-- the same reduction, gather and scatter-add stand on both sides of each equation below, applied to operands that
-- are shown equal; their own definitions (sums over all 1600000 edges) play no part
attribute [local irreducible] Host.reduce Host.gather Host.scatterAdd

/-- The contents after two lists of operations in a row: after the second, from the contents after the first. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op ops ih => simp only [List.cons_append, StableHlo.after_cons, ih]

variable (W : Valuation τ sig (Elt Ideal))

/-! ## The first stretch: the rows of `edge_index` as columns -/

set_option maxHeartbeats 2000000 in
/-- The source column. -/
theorem cols_src :
    StableHlo.after hostOps0 W (Proc.devRef .tc main_v1) = Agg.srcOf (W (Proc.devRef .tc main_arg1)) := by
  after_results_simp
  all_goals rfl

set_option maxHeartbeats 2000000 in
/-- The destination column. -/
theorem cols_dst :
    StableHlo.after hostOps0 W (Proc.devRef .tc main_v3) = Agg.dstOf (W (Proc.devRef .tc main_arg1)) := by
  after_results_simp
  all_goals rfl

set_option maxHeartbeats 2000000 in
/-- The first stretch leaves `main_arg0` alone. -/
theorem cols_arg0 :
    StableHlo.after hostOps0 W (Proc.devRef .tc main_arg0) = W (Proc.devRef .tc main_arg0) := by
  after_results_simp
  all_goals rfl

set_option maxHeartbeats 2000000 in
/-- The first stretch leaves `main_arg2` alone. -/
theorem cols_arg2 :
    StableHlo.after hostOps0 W (Proc.devRef .tc main_arg2) = W (Proc.devRef .tc main_arg2) := by
  after_results_simp
  all_goals rfl

set_option maxHeartbeats 2000000 in
/-- The first stretch leaves `main_arg3` alone. -/
theorem cols_arg3 :
    StableHlo.after hostOps0 W (Proc.devRef .tc main_arg3) = W (Proc.devRef .tc main_arg3) := by
  after_results_simp
  all_goals rfl

set_option maxHeartbeats 2000000 in
/-- The first stretch leaves `main_arg4` alone. -/
theorem cols_arg4 :
    StableHlo.after hostOps0 W (Proc.devRef .tc main_arg4) = W (Proc.devRef .tc main_arg4) := by
  after_results_simp
  all_goals rfl

set_option maxHeartbeats 2000000 in
/-- The first stretch leaves `main_arg5` alone. -/
theorem cols_arg5 :
    StableHlo.after hostOps0 W (Proc.devRef .tc main_arg5) = W (Proc.devRef .tc main_arg5) := by
  after_results_simp
  all_goals rfl

set_option maxHeartbeats 2000000 in
/-- The first stretch leaves `main_arg6` alone. -/
theorem cols_arg6 :
    StableHlo.after hostOps0 W (Proc.devRef .tc main_arg6) = W (Proc.devRef .tc main_arg6) := by
  after_results_simp
  all_goals rfl

set_option maxHeartbeats 2000000 in
/-- The first stretch leaves `main_arg7` alone. -/
theorem cols_arg7 :
    StableHlo.after hostOps0 W (Proc.devRef .tc main_arg7) = W (Proc.devRef .tc main_arg7) := by
  after_results_simp
  all_goals rfl

/-! ## The second stretch: the masked gather -/

/-- The gather's operations through the in-range mask. -/
abbrev takeOpsA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The gather's last operations: the plain gather, the mask broadcast along the rows, the select. -/
abbrev takeOpsB : List (HloOp τ sig (Elt Ideal)) :=
  [ StableHlo.TRef.binary (.of main_arg0 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v4 : StableHlo.TRef sig ⟨S1600000x128, .f32⟩) select ]

/-- The gather's operations are those two lists, one after the other. -/
theorem take_split : (hostOps0_1 : List (HloOp τ sig (Elt Ideal))) = takeOpsA ++ takeOpsB := rfl

set_option maxHeartbeats 2000000 in
/-- The wrapped index column. -/
theorem takeA_col :
    StableHlo.after takeOpsA W (Proc.devRef .tc main_call0_v5) = wrapColS (W (Proc.devRef .tc main_v1)) := by
  after_results_simp
  all_goals rfl

set_option maxHeartbeats 2000000 in
/-- The in-range mask. -/
theorem takeA_mask :
    StableHlo.after takeOpsA W (Proc.devRef .tc main_call0_v12) = inRangeS (W (Proc.devRef .tc main_v1)) := by
  after_results_simp
  all_goals rfl

set_option maxHeartbeats 2000000 in
/-- The features, untouched. -/
theorem takeA_x :
    StableHlo.after takeOpsA W (Proc.devRef .tc main_arg0) = W (Proc.devRef .tc main_arg0) := by
  after_results_simp
  all_goals rfl

set_option maxHeartbeats 2000000 in
/-- The select of the plain gather and the not-a-number word by the mask. -/
theorem takeB_rows :
    StableHlo.after takeOpsB W (Proc.devRef .tc main_v4) = select (broadcastInDim S1600000x128 ![0] bcast_S1600000_S1600000x128_0 (W (Proc.devRef .tc main_call0_v12)))
        (Host.gather gather_S100000x128_S1600000x1_S1600000x128_1_0_n_n_0_1_1128 (W (Proc.devRef .tc main_arg0)) (W (Proc.devRef .tc main_call0_v5)))
        (broadcastInDim S1600000x128 ![] bcast_S_S1600000x128 (constant (F := Ideal) S_ .f32 0x7FC00000#32)) := by
  after_results_simp
  all_goals rfl

/-- The gathered rows: the masked gather of the features at the wrapped source indices. -/
theorem take_rows :
    StableHlo.after hostOps0_1 W (Proc.devRef .tc main_v4) = takeRowsS (W (Proc.devRef .tc main_arg0)) (W (Proc.devRef .tc main_v1)) := by
  rw [take_split, after_append, takeB_rows, takeA_mask, takeA_col, takeA_x]
  rfl

set_option maxHeartbeats 2000000 in
/-- The second stretch leaves `main_v1` alone. -/
theorem take_v1 :
    StableHlo.after hostOps0_1 W (Proc.devRef .tc main_v1) = W (Proc.devRef .tc main_v1) := by
  after_results_simp
  all_goals rfl

set_option maxHeartbeats 2000000 in
/-- The second stretch leaves `main_v3` alone. -/
theorem take_v3 :
    StableHlo.after hostOps0_1 W (Proc.devRef .tc main_v3) = W (Proc.devRef .tc main_v3) := by
  after_results_simp
  all_goals rfl

set_option maxHeartbeats 2000000 in
/-- The second stretch leaves `main_arg0` alone. -/
theorem take_arg0 :
    StableHlo.after hostOps0_1 W (Proc.devRef .tc main_arg0) = W (Proc.devRef .tc main_arg0) := by
  after_results_simp
  all_goals rfl

set_option maxHeartbeats 2000000 in
/-- The second stretch leaves `main_arg2` alone. -/
theorem take_arg2 :
    StableHlo.after hostOps0_1 W (Proc.devRef .tc main_arg2) = W (Proc.devRef .tc main_arg2) := by
  after_results_simp
  all_goals rfl

set_option maxHeartbeats 2000000 in
/-- The second stretch leaves `main_arg3` alone. -/
theorem take_arg3 :
    StableHlo.after hostOps0_1 W (Proc.devRef .tc main_arg3) = W (Proc.devRef .tc main_arg3) := by
  after_results_simp
  all_goals rfl

set_option maxHeartbeats 2000000 in
/-- The second stretch leaves `main_arg4` alone. -/
theorem take_arg4 :
    StableHlo.after hostOps0_1 W (Proc.devRef .tc main_arg4) = W (Proc.devRef .tc main_arg4) := by
  after_results_simp
  all_goals rfl

set_option maxHeartbeats 2000000 in
/-- The second stretch leaves `main_arg5` alone. -/
theorem take_arg5 :
    StableHlo.after hostOps0_1 W (Proc.devRef .tc main_arg5) = W (Proc.devRef .tc main_arg5) := by
  after_results_simp
  all_goals rfl

set_option maxHeartbeats 2000000 in
/-- The second stretch leaves `main_arg6` alone. -/
theorem take_arg6 :
    StableHlo.after hostOps0_1 W (Proc.devRef .tc main_arg6) = W (Proc.devRef .tc main_arg6) := by
  after_results_simp
  all_goals rfl

set_option maxHeartbeats 2000000 in
/-- The second stretch leaves `main_arg7` alone. -/
theorem take_arg7 :
    StableHlo.after hostOps0_1 W (Proc.devRef .tc main_arg7) = W (Proc.devRef .tc main_arg7) := by
  after_results_simp
  all_goals rfl

/-! ## The third stretch: the mean, the transposes, the bias row -/

set_option maxHeartbeats 2000000 in
/-- The mean aggregation. -/
theorem mean_agg :
    StableHlo.after hostOps0_2 W (Proc.devRef .tc main_v16) = meanOverS (W (Proc.devRef .tc main_v4)) (W (Proc.devRef .tc main_v3)) := by
  after_results_simp
  all_goals rfl

set_option maxHeartbeats 2000000 in
/-- The left weight matrix, transposed. -/
theorem mean_wl :
    StableHlo.after hostOps0_2 W (Proc.devRef .tc main_v17) = Agg.tr (W (Proc.devRef .tc main_arg2)) := by
  after_results_simp
  all_goals rfl

set_option maxHeartbeats 2000000 in
/-- The right weight matrix, transposed. -/
theorem mean_wr :
    StableHlo.after hostOps0_2 W (Proc.devRef .tc main_v18) = Agg.tr (W (Proc.devRef .tc main_arg4)) := by
  after_results_simp
  all_goals rfl

set_option maxHeartbeats 2000000 in
/-- The bias as a row. -/
theorem mean_b :
    StableHlo.after hostOps0_2 W (Proc.devRef .tc main_v19) = Agg.row (W (Proc.devRef .tc main_arg3)) := by
  after_results_simp
  all_goals rfl

set_option maxHeartbeats 2000000 in
/-- The third stretch leaves `main_v1` alone. -/
theorem mean_v1 :
    StableHlo.after hostOps0_2 W (Proc.devRef .tc main_v1) = W (Proc.devRef .tc main_v1) := by
  after_results_simp
  all_goals rfl

set_option maxHeartbeats 2000000 in
/-- The third stretch leaves `main_v3` alone. -/
theorem mean_v3 :
    StableHlo.after hostOps0_2 W (Proc.devRef .tc main_v3) = W (Proc.devRef .tc main_v3) := by
  after_results_simp
  all_goals rfl

set_option maxHeartbeats 2000000 in
/-- The third stretch leaves `main_arg0` alone. -/
theorem mean_arg0 :
    StableHlo.after hostOps0_2 W (Proc.devRef .tc main_arg0) = W (Proc.devRef .tc main_arg0) := by
  after_results_simp
  all_goals rfl

set_option maxHeartbeats 2000000 in
/-- The third stretch leaves `main_arg5` alone. -/
theorem mean_arg5 :
    StableHlo.after hostOps0_2 W (Proc.devRef .tc main_arg5) = W (Proc.devRef .tc main_arg5) := by
  after_results_simp
  all_goals rfl

set_option maxHeartbeats 2000000 in
/-- The third stretch leaves `main_arg6` alone. -/
theorem mean_arg6 :
    StableHlo.after hostOps0_2 W (Proc.devRef .tc main_arg6) = W (Proc.devRef .tc main_arg6) := by
  after_results_simp
  all_goals rfl

set_option maxHeartbeats 2000000 in
/-- The third stretch leaves `main_arg7` alone. -/
theorem mean_arg7 :
    StableHlo.after hostOps0_2 W (Proc.devRef .tc main_arg7) = W (Proc.devRef .tc main_arg7) := by
  after_results_simp
  all_goals rfl

/-! ## Region 0's windows -/

/-- Window 0 of region 0: the mean aggregation of the input features. -/
theorem before0_agg :
    StableHlo.after hostOps0_2 (StableHlo.after hostOps0_1 (StableHlo.after hostOps0 W)) (Proc.devRef .tc main_v16)
      = Agg.meanOver (F := Ideal) (Agg.takeRows (F := Ideal) (W (Proc.devRef .tc main_arg0)) (W (Proc.devRef .tc main_arg1))) (W (Proc.devRef .tc main_arg1)) := by
  rw [mean_agg, take_rows, take_v3, cols_dst, cols_arg0, cols_src, takeRowsS_src, meanOverS_dst]

/-- Window 1 of region 0: the input features. -/
theorem before0_x : StableHlo.after hostOps0_2 (StableHlo.after hostOps0_1 (StableHlo.after hostOps0 W)) (Proc.devRef .tc main_arg0) = W (Proc.devRef .tc main_arg0) := by
  rw [mean_arg0, take_arg0, cols_arg0]

/-- Window 2 of region 0: the first layer's left weight matrix, transposed. -/
theorem before0_wl : StableHlo.after hostOps0_2 (StableHlo.after hostOps0_1 (StableHlo.after hostOps0 W)) (Proc.devRef .tc main_v17) = Agg.tr (W (Proc.devRef .tc main_arg2)) := by
  rw [mean_wl, take_arg2, cols_arg2]

/-- Window 4 of region 0: the first layer's right weight matrix, transposed. -/
theorem before0_wr : StableHlo.after hostOps0_2 (StableHlo.after hostOps0_1 (StableHlo.after hostOps0 W)) (Proc.devRef .tc main_v18) = Agg.tr (W (Proc.devRef .tc main_arg4)) := by
  rw [mean_wr, take_arg4, cols_arg4]

/-- Window 3 of region 0: the first layer's bias as a row. -/
theorem before0_b : StableHlo.after hostOps0_2 (StableHlo.after hostOps0_1 (StableHlo.after hostOps0 W)) (Proc.devRef .tc main_v19) = Agg.row (W (Proc.devRef .tc main_arg3)) := by
  rw [mean_b, take_arg3, cols_arg3]

/-- The source column is still there when region 0 starts. -/
theorem before0_src : StableHlo.after hostOps0_2 (StableHlo.after hostOps0_1 (StableHlo.after hostOps0 W)) (Proc.devRef .tc main_v1) = Agg.srcOf (W (Proc.devRef .tc main_arg1)) := by
  rw [mean_v1, take_v1, cols_src]

/-- The destination column is still there when region 0 starts. -/
theorem before0_dst : StableHlo.after hostOps0_2 (StableHlo.after hostOps0_1 (StableHlo.after hostOps0 W)) (Proc.devRef .tc main_v3) = Agg.dstOf (W (Proc.devRef .tc main_arg1)) := by
  rw [mean_v3, take_v3, cols_dst]

/-- The second layer's parameter `main_arg5` is untouched when region 0 starts. -/
theorem before0_wl2 : StableHlo.after hostOps0_2 (StableHlo.after hostOps0_1 (StableHlo.after hostOps0 W)) (Proc.devRef .tc main_arg5) = W (Proc.devRef .tc main_arg5) := by
  rw [mean_arg5, take_arg5, cols_arg5]

/-- The second layer's parameter `main_arg6` is untouched when region 0 starts. -/
theorem before0_b2 : StableHlo.after hostOps0_2 (StableHlo.after hostOps0_1 (StableHlo.after hostOps0 W)) (Proc.devRef .tc main_arg6) = W (Proc.devRef .tc main_arg6) := by
  rw [mean_arg6, take_arg6, cols_arg6]

/-- The second layer's parameter `main_arg7` is untouched when region 0 starts. -/
theorem before0_wr2 : StableHlo.after hostOps0_2 (StableHlo.after hostOps0_1 (StableHlo.after hostOps0 W)) (Proc.devRef .tc main_arg7) = W (Proc.devRef .tc main_arg7) := by
  rw [mean_arg7, take_arg7, cols_arg7]

end Cert.KernelIdeal.HostValue

end
-- ==== Proof.KernelHost1.lean ====
/-
  What region 1 (the second layer) finds in its windows' arrays, for any contents `W` of the buffers when region 0
  has ended, provided the source and destination columns are still those of `edge_index`.

  Two stretches: the masked gather of the rows of the first layer's output `h` (the array `main_v20`) at the wrapped
  source indices; then the mean over incoming edges of those rows, beside the transposes of the two second-layer weight
  matrices and the second bias laid out as a row.
-/
import proofs.«407156_j39496519254558_1_alg».proof.Proof.Gen.KernelIdeal.Frame
import proofs.«407156_j39496519254558_1_alg».proof.Proof.Model
import proofs.«407156_j39496519254558_1_alg».proof.Proof.KernelHost
import Idealize.ShloMosaic.Lib.StableHlo.Run

set_option maxRecDepth 16384
set_option Elab.async false

noncomputable section

namespace Cert.KernelIdeal.HostValue

open Cert.KernelIdeal Cert.KernelIdeal.Gen Idealize.ShloMosaic Idealize.ShloMosaic.TcCoe Idealize.SL.Sem
open Idealize.ShloMosaic.StableHlo

-- the same reduction, gather and scatter-add stand on both sides of each equation below, applied to operands that
-- are shown equal; their own definitions (sums over all 1600000 edges) play no part
attribute [local irreducible] Host.reduce Host.gather Host.scatterAdd

variable (W : Valuation τ sig (Elt Ideal))

/-! ## The first stretch: the masked gather of `h` -/

/-- The gather's operations through the in-range mask. -/
abbrev take1OpsA : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_v1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_v1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_v1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_) ]

/-- The gather's last operations: the plain gather, the mask broadcast along the rows, the select. -/
abbrev take1OpsB : List (HloOp τ sig (Elt Ideal)) :=
  [ StableHlo.TRef.binary (.of main_v20 : StableHlo.TRef sig ⟨S100000x128, .f32⟩) (.of main_call1_v5 : StableHlo.TRef sig ⟨S1600000x1, .i32⟩) (.of main_call1_v13 : StableHlo.TRef sig ⟨S1600000x128, .f32⟩) (fun x i => Host.gather gather_S100000x128_S1600000x1_S1600000x128_1_0_n_n_0_1_1128 x i),
    StableHlo.TRef.unary (.of main_call1_v12 : StableHlo.TRef sig ⟨S1600000, .i1⟩) (.of main_call1_v14 : StableHlo.TRef sig ⟨S1600000x128, .i1⟩) (broadcastInDim S1600000x128 ![0] bcast_S1600000_S1600000x128_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S1600000x128, .f32⟩) (broadcastInDim S1600000x128 ![] bcast_S_S1600000x128),
    StableHlo.TRef.ternary (.of main_call1_v14 : StableHlo.TRef sig ⟨S1600000x128, .i1⟩) (.of main_call1_v13 : StableHlo.TRef sig ⟨S1600000x128, .f32⟩) (.of main_call1_v15 : StableHlo.TRef sig ⟨S1600000x128, .f32⟩) (.of main_v21 : StableHlo.TRef sig ⟨S1600000x128, .f32⟩) select ]

/-- The gather's operations are those two lists, one after the other. -/
theorem take1_split : (hostOps1 : List (HloOp τ sig (Elt Ideal))) = take1OpsA ++ take1OpsB := rfl

set_option maxHeartbeats 2000000 in
/-- The wrapped index column. -/
theorem take1A_col :
    StableHlo.after take1OpsA W (Proc.devRef .tc main_call1_v5) = wrapColS (W (Proc.devRef .tc main_v1)) := by
  after_results_simp
  all_goals rfl

set_option maxHeartbeats 2000000 in
/-- The in-range mask. -/
theorem take1A_mask :
    StableHlo.after take1OpsA W (Proc.devRef .tc main_call1_v12) = inRangeS (W (Proc.devRef .tc main_v1)) := by
  after_results_simp
  all_goals rfl

set_option maxHeartbeats 2000000 in
/-- The features, untouched. -/
theorem take1A_x :
    StableHlo.after take1OpsA W (Proc.devRef .tc main_v20) = W (Proc.devRef .tc main_v20) := by
  after_results_simp
  all_goals rfl

set_option maxHeartbeats 2000000 in
/-- The select of the plain gather and the not-a-number word by the mask. -/
theorem take1B_rows :
    StableHlo.after take1OpsB W (Proc.devRef .tc main_v21) = select (broadcastInDim S1600000x128 ![0] bcast_S1600000_S1600000x128_0 (W (Proc.devRef .tc main_call1_v12)))
        (Host.gather gather_S100000x128_S1600000x1_S1600000x128_1_0_n_n_0_1_1128 (W (Proc.devRef .tc main_v20)) (W (Proc.devRef .tc main_call1_v5)))
        (broadcastInDim S1600000x128 ![] bcast_S_S1600000x128 (constant (F := Ideal) S_ .f32 0x7FC00000#32)) := by
  after_results_simp
  all_goals rfl

/-- The gathered rows: the masked gather of the features at the wrapped source indices. -/
theorem take1_rows :
    StableHlo.after hostOps1 W (Proc.devRef .tc main_v21) = takeRowsS (W (Proc.devRef .tc main_v20)) (W (Proc.devRef .tc main_v1)) := by
  rw [take1_split, after_append, take1B_rows, take1A_mask, take1A_col, take1A_x]
  rfl

set_option maxHeartbeats 2000000 in
/-- This stretch leaves `main_v3` alone. -/
theorem take1_v3 :
    StableHlo.after hostOps1 W (Proc.devRef .tc main_v3) = W (Proc.devRef .tc main_v3) := by
  after_results_simp
  all_goals rfl

set_option maxHeartbeats 2000000 in
/-- This stretch leaves `main_v20` alone. -/
theorem take1_v20 :
    StableHlo.after hostOps1 W (Proc.devRef .tc main_v20) = W (Proc.devRef .tc main_v20) := by
  after_results_simp
  all_goals rfl

set_option maxHeartbeats 2000000 in
/-- This stretch leaves `main_arg5` alone. -/
theorem take1_arg5 :
    StableHlo.after hostOps1 W (Proc.devRef .tc main_arg5) = W (Proc.devRef .tc main_arg5) := by
  after_results_simp
  all_goals rfl

set_option maxHeartbeats 2000000 in
/-- This stretch leaves `main_arg6` alone. -/
theorem take1_arg6 :
    StableHlo.after hostOps1 W (Proc.devRef .tc main_arg6) = W (Proc.devRef .tc main_arg6) := by
  after_results_simp
  all_goals rfl

set_option maxHeartbeats 2000000 in
/-- This stretch leaves `main_arg7` alone. -/
theorem take1_arg7 :
    StableHlo.after hostOps1 W (Proc.devRef .tc main_arg7) = W (Proc.devRef .tc main_arg7) := by
  after_results_simp
  all_goals rfl

/-! ## The second stretch: the mean, the transposes, the bias row -/

set_option maxHeartbeats 2000000 in
/-- The mean aggregation. -/
theorem mean1_agg :
    StableHlo.after hostOps1_1 W (Proc.devRef .tc main_v33) = meanOverS (W (Proc.devRef .tc main_v21)) (W (Proc.devRef .tc main_v3)) := by
  after_results_simp
  all_goals rfl

set_option maxHeartbeats 2000000 in
/-- The left weight matrix, transposed. -/
theorem mean1_wl :
    StableHlo.after hostOps1_1 W (Proc.devRef .tc main_v34) = Agg.tr (W (Proc.devRef .tc main_arg5)) := by
  after_results_simp
  all_goals rfl

set_option maxHeartbeats 2000000 in
/-- The right weight matrix, transposed. -/
theorem mean1_wr :
    StableHlo.after hostOps1_1 W (Proc.devRef .tc main_v35) = Agg.tr (W (Proc.devRef .tc main_arg7)) := by
  after_results_simp
  all_goals rfl

set_option maxHeartbeats 2000000 in
/-- The bias as a row. -/
theorem mean1_b :
    StableHlo.after hostOps1_1 W (Proc.devRef .tc main_v36) = Agg.row (W (Proc.devRef .tc main_arg6)) := by
  after_results_simp
  all_goals rfl

set_option maxHeartbeats 2000000 in
/-- This stretch leaves the first layer's output alone. -/
theorem mean1_v20 :
    StableHlo.after hostOps1_1 W (Proc.devRef .tc main_v20) = W (Proc.devRef .tc main_v20) := by
  after_results_simp
  all_goals rfl

/-! ## Region 1's windows -/

/-- Window 0 of region 1: the mean aggregation of the first layer's output. -/
theorem before1_agg (ei : IVec S2x1600000 32) (hs : W (Proc.devRef .tc main_v1) = Agg.srcOf ei) (hd : W (Proc.devRef .tc main_v3) = Agg.dstOf ei) :
    StableHlo.after hostOps1_1 (StableHlo.after hostOps1 W) (Proc.devRef .tc main_v33)
      = Agg.meanOver (F := Ideal) (Agg.takeRows (F := Ideal) (W (Proc.devRef .tc main_v20)) ei) ei := by
  rw [mean1_agg, take1_rows, take1_v3, hs, hd, takeRowsS_src, meanOverS_dst]

/-- Window 1 of region 1: the first layer's output. -/
theorem before1_h : StableHlo.after hostOps1_1 (StableHlo.after hostOps1 W) (Proc.devRef .tc main_v20) = W (Proc.devRef .tc main_v20) := by
  rw [mean1_v20, take1_v20]

/-- Window 2 of region 1: the second layer's left weight matrix, transposed. -/
theorem before1_wl : StableHlo.after hostOps1_1 (StableHlo.after hostOps1 W) (Proc.devRef .tc main_v34) = Agg.tr (W (Proc.devRef .tc main_arg5)) := by
  rw [mean1_wl, take1_arg5]

/-- Window 4 of region 1: the second layer's right weight matrix, transposed. -/
theorem before1_wr : StableHlo.after hostOps1_1 (StableHlo.after hostOps1 W) (Proc.devRef .tc main_v35) = Agg.tr (W (Proc.devRef .tc main_arg7)) := by
  rw [mean1_wr, take1_arg7]

/-- Window 3 of region 1: the second layer's bias as a row. -/
theorem before1_b : StableHlo.after hostOps1_1 (StableHlo.after hostOps1 W) (Proc.devRef .tc main_v36) = Agg.row (W (Proc.devRef .tc main_arg6)) := by
  rw [mean1_b, take1_arg6]

end Cert.KernelIdeal.HostValue

end
-- ==== Proof.KernelValue.lean ====
/-
  The kernel program's result as a function of its arguments.

  The run ends with the result buffer at the last boundary's contents.  Walking back: that array is what region 1's
  write-backs leave, the second layer applied to what region 1 finds in its windows; those are the mean aggregation of
  the first layer's output `h`, `h` itself and the second layer's parameters; `h` is what region 0's write-backs
  leave, the first layer (with its activation) applied to the mean aggregation of the input features, the features
  and the first layer's parameters.  Together: `twoLayer` over the masked gather, of the arguments.
-/
import proofs.«407156_j39496519254558_1_alg».proof.Proof.KernelRun
import proofs.«407156_j39496519254558_1_alg».proof.Proof.KernelRegion
import proofs.«407156_j39496519254558_1_alg».proof.Proof.KernelHost
import proofs.«407156_j39496519254558_1_alg».proof.Proof.KernelHost1
import proofs.«407156_j39496519254558_1_alg».proof.Proof.Model

set_option maxRecDepth 16384

noncomputable section

namespace Cert.KernelIdeal.ResultValue

open Cert.KernelIdeal Cert.KernelIdeal.Gen Idealize.ShloMosaic Idealize.ShloMosaic.TcCoe Idealize.SL.Sem

/-- Region 0's output array, for any entry contents `V` whose five input windows' arrays are known. -/
theorem region0_of (V : (c : Dev nD) → (b : Ref sig .tc) → Buf (Elt Ideal) ((c : Thread nD τ).loc b)) (c : Dev nD)
    (a x : FVec Ideal S100000x128 .f32) (wl wr : FVec Ideal S128x128 .f32) (b : FVec Ideal S1x128 .f32)
    (ha : V c main_v16 = a) (hx : V c main_arg0 = x) (hwl : V c main_v17 = wl) (hwr : V c main_v18 = wr) (hb : V c main_v19 = b) :
    (dat0 (F := Ideal) V c).arrAt 5 cfg0.N = Cert.Sage.relu (Cert.Sage.lin a x wl wr b) := by
  subst ha hx hwl hwr hb
  exact RegionValue.region0_value V c

/-- Region 1's output array, for any entry contents `V` whose five input windows' arrays are known. -/
theorem region1_of (V : (c : Dev nD) → (b : Ref sig .tc) → Buf (Elt Ideal) ((c : Thread nD τ).loc b)) (c : Dev nD)
    (a x : FVec Ideal S100000x128 .f32) (wl wr : FVec Ideal S128x128 .f32) (b : FVec Ideal S1x128 .f32)
    (ha : V c main_v33 = a) (hx : V c main_v20 = x) (hwl : V c main_v34 = wl) (hwr : V c main_v35 = wr) (hb : V c main_v36 = b) :
    (dat1 (F := Ideal) V c).arrAt 5 cfg1.N = Cert.Sage.lin a x wl wr b := by
  subst ha hx hwl hwr hb
  exact RegionValue.region1_value V c

variable (m : (ℓ : Loc nD τ sig) → Buf (Elt Ideal) ℓ) (ρ : Dev nD → PrngReg)

/-- The first layer's output `h`: the array `main_v20` when region 0 has ended. -/
theorem hidden_value (c : Dev nD) :
    W4 m ρ c (Proc.devRef .tc main_v20)
      = Agg.hidden (Agg.takeRows (F := Ideal)) (m ((c : Thread nD τ).loc main_arg0)) (m ((c : Thread nD τ).loc main_arg1)) (m ((c : Thread nD τ).loc main_arg2)) (m ((c : Thread nD τ).loc main_arg3)) (m ((c : Thread nD τ).loc main_arg4)) := by
  have h5 : W4 m ρ c (Proc.devRef .tc main_v20) = (dat0 (V3 m ρ) c).arrAt 5 cfg0.N := W4_arr m ρ c 5
  refine h5.trans ((region0_of (V3 m ρ) c _ _ _ _ _
    (HostValue.before0_agg (W0 m ρ c)) (HostValue.before0_x (W0 m ρ c)) (HostValue.before0_wl (W0 m ρ c))
    (HostValue.before0_wr (W0 m ρ c)) (HostValue.before0_b (W0 m ρ c))).trans ?_)
  rfl

/-- A buffer region 0 does not write holds after it what it held before. -/
theorem W4_src (c : Dev nD) : W4 m ρ c (Proc.devRef .tc main_v1) = Agg.srcOf (m ((c : Thread nD τ).loc main_arg1)) :=
  (W4_of_ne m ρ c main_v1 (by decide)).trans (HostValue.before0_src (W0 m ρ c))
theorem W4_dst (c : Dev nD) : W4 m ρ c (Proc.devRef .tc main_v3) = Agg.dstOf (m ((c : Thread nD τ).loc main_arg1)) :=
  (W4_of_ne m ρ c main_v3 (by decide)).trans (HostValue.before0_dst (W0 m ρ c))
theorem W4_wl2 (c : Dev nD) : W4 m ρ c (Proc.devRef .tc main_arg5) = (m ((c : Thread nD τ).loc main_arg5)) :=
  (W4_of_ne m ρ c main_arg5 (by decide)).trans (HostValue.before0_wl2 (W0 m ρ c))
theorem W4_b2 (c : Dev nD) : W4 m ρ c (Proc.devRef .tc main_arg6) = (m ((c : Thread nD τ).loc main_arg6)) :=
  (W4_of_ne m ρ c main_arg6 (by decide)).trans (HostValue.before0_b2 (W0 m ρ c))
theorem W4_wr2 (c : Dev nD) : W4 m ρ c (Proc.devRef .tc main_arg7) = (m ((c : Thread nD τ).loc main_arg7)) :=
  (W4_of_ne m ρ c main_arg7 (by decide)).trans (HostValue.before0_wr2 (W0 m ρ c))

/-- THE RESULT: the array `main_v37` when region 1 has ended is the two layers, over the masked gather, of the
    arguments. -/
theorem result_value (c : Dev nD) :
    W7 m ρ c (Proc.devRef .tc main_v37)
      = Agg.twoLayer (Agg.takeRows (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h5 : W7 m ρ c (Proc.devRef .tc main_v37) = (dat1 (V6 m ρ) c).arrAt 5 cfg1.N := W7_arr m ρ c 5
  refine h5.trans ((region1_of (V6 m ρ) c _ _ _ _ _
    (HostValue.before1_agg (W4 m ρ c) (m ((c : Thread nD τ).loc main_arg1)) (W4_src m ρ c) (W4_dst m ρ c)) (HostValue.before1_h (W4 m ρ c))
    (HostValue.before1_wl (W4 m ρ c)) (HostValue.before1_wr (W4 m ρ c)) (HostValue.before1_b (W4 m ρ c))).trans ?_)
  rw [hidden_value, W4_wl2, W4_b2, W4_wr2]
  rfl

/-- THE RUN: every weakly fair execution of the kernel's program terminates without a fault, the result array at the
    two layers (over the masked gather) of the arguments and the arguments as launched. -/
theorem run :
    θ_run defs (onTc (τ := τ) (main (F := Ideal))) ⟨m, fun _ => 0, ρ⟩ (fun r => ∀ c : Dev nD,
      r.2.mem ((c.tc : Thread nD τ).loc main_v37)
        = Agg.twoLayer (Agg.takeRows (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_value m ρ c), (h c).2⟩) (run_result m ρ)

end Cert.KernelIdeal.ResultValue

end
-- ==== Proof.RefSide.lean ====
/-
  The reference program's result, as two applications of the layer of `Spec.lean`.

  The reference computes, per layer, `(a · wlᵀ + b) + x · wrᵀ` with `a` the mean aggregation of `x`; the first layer is
  followed by a maximum with zero.  Read at a node `p` and a channel `q`, each product is the sum over `k` of the
  left operand's row `p` against the transposed weight's column `q`, and the doubly broadcast bias is `b[q]`; moving
  the bias past the second product (addition of extended reals is commutative and associative) gives the layer's
  pre-activation as the specification writes it.
-/
import proofs.«407156_j39496519254558_1_alg».proof.Proof.Gen.ReferenceIdeal.Run
import proofs.«407156_j39496519254558_1_alg».proof.Proof.Gen.ReferenceIdeal.Read
import proofs.«407156_j39496519254558_1_alg».proof.Proof.Spec
import proofs.«407156_j39496519254558_1_alg».proof.Proof.Model
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The host's matrix product `y0 · y1` at node `i 0`, channel `i 1`: the sum over `k` of `y0[i 0, k] · y1[k, i 1]`. -/
theorem dot_apply (y0 : FVec Ideal S100000x128 .f32) (y1 : FVec Ideal S128x128 .f32) (i : S100000x128.Idx) :
    Host.dotGeneral dot_S100000x128_S128x128_S100000x128_1_0_0_1_n_n none y0 y1 i
      = ∑ k : Fin 128, y0 (lidx_main_v24 i k) * y1 (ridx_main_v24 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v24 i k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v24 i k := funext fun a => Fin.ext (by
    match a with
    | ⟨0, _⟩ => exact (rhs_main_v24_0 _ _).trans hk
    | ⟨1, _⟩ => exact rhs_main_v24_1 _ _)
  rw [el, er]

/-- The bias as the reference adds it (broadcast to a row, then to every node) at node `p`, channel `q` is `b[q]`. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  show val_main_v26 (F := Ideal) b (ix2 p q) = _
  rw [val_main_v26_apply, val_main_v25_apply]
  exact congrArg b (funext fun a => match a with | ⟨0, _⟩ => rfl)

/-- The bias as the kernel's program lays it out (a `[1, 128]` row) at channel `q` is `b[q]`. -/
theorem biasRow_apply (b : FVec Ideal S128 .f32) (h : S128.ShapeCasts Cert.Sage.BiasRow) (q : Fin 128) :
    shapeCast Cert.Sage.BiasRow b h (ix2 (0 : Fin 1) q) = b (ix1 q) := by
  refine shapeCast_apply b h (ix2 (0 : Fin 1) q) (ix1 q) ?_
  rw [Shape.rowMajor_val_one, Shape.rowMajor_val_two]
  show q.val = (0 : Nat) * 128 + q.val
  omega

/-- ONE LAYER: the reference's `(a · wl + b) + x · wr` is the specification's `(a · wl + x · wr) + b`, with the bias laid
    out as a row. -/
theorem layer_eq (a x : FVec Ideal S100000x128 .f32) (wl wr : FVec Ideal S128x128 .f32) (b : FVec Ideal S128 .f32)
    (h : S128.ShapeCasts Cert.Sage.BiasRow) :
    addf (addf (Host.dotGeneral dot_S100000x128_S128x128_S100000x128_1_0_0_1_n_n none a wl)
        (broadcastInDim S100000x128 ![0, 1] bcast_S1x128_S100000x128_0_1 (broadcastInDim S1x128 ![1] bcast_S128_S1x128_1 b)))
      (Host.dotGeneral dot_S100000x128_S128x128_S100000x128_1_0_0_1_n_n none x wr)
      = Cert.Sage.lin a x wl wr (shapeCast Cert.Sage.BiasRow b h) := by
  funext i
  obtain ⟨p, q, rfl⟩ : ∃ (p : Fin 100000) (q : Fin 128), i = ix2 p q := ⟨i 0, i 1, eq_ix2 i⟩
  rw [Cert.Sage.lin_ix2]
  unfold Cert.Sage.linAt
  rw [addf_apply, addf_apply, dot_apply, dot_apply, bias_apply, biasRow_apply]
  have hl : ∀ k : Fin 128, lidx_main_v24 (ix2 p q) k = ix2 p k := fun k => funext fun d => by
    match d with
    | ⟨0, _⟩ => rfl
    | ⟨1, _⟩ => rfl
  have hr : ∀ k : Fin 128, ridx_main_v24 (ix2 p q) k = ix2 k q := fun k => funext fun d => by
    match d with
    | ⟨0, _⟩ => rfl
    | ⟨1, _⟩ => rfl
  simp only [hl, hr]
  exact add_right_comm _ _ _

/-- The reference's activation is the specification's. -/
theorem relu_eq (h : FVec Ideal S100000x128 .f32) :
    maximumf h (broadcastInDim S100000x128 ![] bcast_S_S100000x128 (constant S_ .f32 0x00000000#32)) = Cert.Sage.relu h := by
  funext i
  rw [maximumf_apply, Cert.Sage.relu_apply]
  congr 1
  show Ideal.ofBits .f32 0x00000000#32 = 0
  exact Ideal.ofBits_zero_f32

-- the same gather and scatter-add stand on both sides of the equation below, applied to equal operands; their own
-- definitions (sums over all 1600000 edges) play no part
attribute [local irreducible] Host.gather Host.scatterAdd

set_option maxHeartbeats 2000000 in
/-- THE REFERENCE'S RESULT: its composed term of the arguments is the two layers over the plain gather. -/
theorem result_eq (x : FVec Ideal S100000x128 .f32) (ei : IVec S2x1600000 32)
    (wl1 : FVec Ideal S128x128 .f32) (b1 : FVec Ideal S128 .f32) (wr1 : FVec Ideal S128x128 .f32)
    (wl2 : FVec Ideal S128x128 .f32) (b2 : FVec Ideal S128 .f32) (wr2 : FVec Ideal S128x128 .f32) :
    addf (addf (Host.dotGeneral dot_S100000x128_S128x128_S100000x128_1_0_0_1_n_n none (Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 (maximumf (addf (addf (Host.dotGeneral dot_S100000x128_S128x128_S100000x128_1_0_0_1_n_n none (Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))) (transpose S128x128 [1, 0] wl1 transposes_S128x128_S128x128_1_0)) (broadcastInDim S100000x128 ![0, 1] bcast_S1x128_S100000x128_0_1 (broadcastInDim S1x128 ![1] bcast_S128_S1x128_1 b1))) (Host.dotGeneral dot_S100000x128_S128x128_S100000x128_1_0_0_1_n_n none x (transpose S128x128 [1, 0] wr1 transposes_S128x128_S128x128_1_0))) (broadcastInDim S100000x128 ![] bcast_S_S100000x128 (constant S_ .f32 0x00000000#32))) (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))) (transpose S128x128 [1, 0] wl2 transposes_S128x128_S128x128_1_0)) (broadcastInDim S100000x128 ![0, 1] bcast_S1x128_S100000x128_0_1 (broadcastInDim S1x128 ![1] bcast_S128_S1x128_1 b2))) (Host.dotGeneral dot_S100000x128_S128x128_S100000x128_1_0_0_1_n_n none (maximumf (addf (addf (Host.dotGeneral dot_S100000x128_S128x128_S100000x128_1_0_0_1_n_n none (Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))) (transpose S128x128 [1, 0] wl1 transposes_S128x128_S128x128_1_0)) (broadcastInDim S100000x128 ![0, 1] bcast_S1x128_S100000x128_0_1 (broadcastInDim S1x128 ![1] bcast_S128_S1x128_1 b1))) (Host.dotGeneral dot_S100000x128_S128x128_S100000x128_1_0_0_1_n_n none x (transpose S128x128 [1, 0] wr1 transposes_S128x128_S128x128_1_0))) (broadcastInDim S100000x128 ![] bcast_S_S100000x128 (constant S_ .f32 0x00000000#32))) (transpose S128x128 [1, 0] wr2 transposes_S128x128_S128x128_1_0))
      = Cert.KernelIdeal.Agg.twoLayer (Cert.KernelIdeal.Agg.gatherRows (F := Ideal)) x ei wl1 b1 wr1 wl2 b2 wr2 := by
  rw [layer_eq _ _ _ _ _ Cert.KernelIdeal.Gen.shapeCasts_S128_S1x128, relu_eq,
    layer_eq _ _ _ _ _ Cert.KernelIdeal.Gen.shapeCasts_S128_S1x128]
  rfl

end Cert.ReferenceIdeal.RefValue

end
-- ==== Proof.PreIndex.lean ====
/-
  The index conjunct of the precondition, carried to the kernel program's in-range mask.

  The precondition's last conjunct says of every edge's source index `s` (row 0 of `edge_index`, read as a signed
  32-bit integer) that `-100000 ≤ s < 100000`.  The kernel's program wraps a negative index around, `w = s + 100000`
  when `s < 0` and `w = s` otherwise, and gathers row `w` where `0 ≤ w ≤ 99999`.  Under the conjunct that test holds at
  every edge: for `s < 0` the sum `s + 100000` lies in `[0, 99999]` and, both summands being far below `2³¹` in
  size, the 32-bit addition does not wrap; for `s ≥ 0` the word is unchanged and `0 ≤ s ≤ 99999`.  The mask is the
  conjunction of the two comparison bits, reduced by `and` along an axis of extent one, so it is `1` at every edge.

  Three steps, each over a variable (a word, an edge, an index) and instantiated last:
  * `src_range_of_pre`: the precondition, read at its one result element, gives the two signed inequalities at
    every edge;
  * `wrap_inRange`: the scalar fact about one word;
  * `foldl_andi_one`: a fold by `and` from `1` over bits that are all `1` is `1`.
-/
import proofs.«407156_j39496519254558_1_alg».proof.Proof.Aggregate
import proofs.«407156_j39496519254558_1_alg».proof.Proof.Gen.Pre_finite_inputs
import Idealize.ShloMosaic.Lib.ReduceAll
import Idealize.ShloMosaic.Lib.ValueIdx

noncomputable section

namespace Cert.KernelIdeal.Agg

open Cert.KernelIdeal Cert.KernelIdeal.Gen Idealize.ShloMosaic

/-- From the precondition to the per-edge fact: every source index, read signed, lies in `[-100000, 100000)`.
    The precondition is a conjunction of one-bit words; its last conjunct is the `and`-reduction over all edges of
    `(s ≥ -100000) and (s < 100000)`, so that bit is `1` at every edge, and each comparison bit being `1` is the
    signed inequality it names.  The two literals read signed are `-100000` (printed as its two's complement
    `4294867296`) and `100000`. -/
theorem src_range_of_pre
    (x : FVec Ideal Cert.Pre_finite_inputs.S100000x128 .f32) (ei : IVec S2x1600000 32)
    (wl1 : FVec Ideal Cert.Pre_finite_inputs.S128x128 .f32) (b1 : FVec Ideal Cert.Pre_finite_inputs.S128 .f32)
    (wr1 wl2 : FVec Ideal Cert.Pre_finite_inputs.S128x128 .f32) (b2 : FVec Ideal Cert.Pre_finite_inputs.S128 .f32)
    (wr2 : FVec Ideal Cert.Pre_finite_inputs.S128x128 .f32)
    (h : Cert.Pre_finite_inputs.fn (F := Ideal) x ei wl1 b1 wr1 wl2 b2 wr2 = fun _ => 1#1)
    (k : S1600000.Idx) :
    (-100000 : Int) ≤ (srcOf ei k).toInt ∧ (srcOf ei k).toInt < 100000 := by
  -- the rank-zero result has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  -- the last conjunct: the reduction over the edges
  have h1 := (IntOp.andi_eq_one.1 h0).2
  -- a reduction by `and` that is 1 met a 1 at every edge
  have h2 := Host.reduce_andi_all _ _ _ _ _ h1 k
  obtain ⟨hge, hlt⟩ := IntOp.andi_eq_one.1 h2
  have hge' := IntOp.cmpi_sge.1 hge
  have hlt' := IntOp.cmpi_slt.1 hlt
  have cl : (4294867296#32 : BitVec 32).toInt = -100000 := by decide
  have ch : (100000#32 : BitVec 32).toInt = 100000 := by decide
  exact ⟨cl ▸ hge', ch ▸ hlt'⟩

/-- One word: for `-100000 ≤ s < 100000` the wrapped word `w` (`s + 100000` when `s < 0`, else `s`) satisfies
    `0 ≤ w ≤ 99999`, so both comparison bits, and their conjunction, are `1`.  In the negative case
    `0 ≤ s + 100000 < 100000` as integers, well inside the signed 32-bit range, so the machine sum is the integer sum. -/
theorem wrap_inRange (s : BitVec 32) (h1 : (-100000 : Int) ≤ s.toInt) (h2 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have c0 : (0#32 : BitVec 32).toInt = 0 := by decide
  have cN : (100000#32 : BitVec 32).toInt = 100000 := by decide
  have cM : (99999#32 : BitVec 32).toInt = 99999 := by decide
  rw [IntOp.andi_eq_one, IntOp.cmpi_sge, IntOp.cmpi_sle, c0, cM]
  by_cases hs : s.toInt < 0
  · -- s < 0: the wrapped word is s + 100000, and the sum does not wrap
    have hc : IntOp.cmpi .slt s 0#32 = 1#1 := IntOp.cmpi_slt.2 (by rw [c0]; exact hs)
    have ha : (IntOp.addi s 100000#32).toInt = s.toInt + 100000 := by
      rw [IntOp.addi, BitVec.toInt_add, cN]
      exact Int.bmod_eq_of_le (by omega) (by omega)
    rw [hc, ValueIdx.select_one, ha]
    omega
  · -- s ≥ 0: the wrapped word is s itself
    have hc : ¬ IntOp.cmpi .slt s 0#32 = 1#1 := fun hc => hs (by have := IntOp.cmpi_slt.1 hc; rwa [c0] at this)
    rw [show Scalar.select (IntOp.cmpi .slt s 0#32) (IntOp.addi s 100000#32) s = s from if_neg hc]
    omega

/-- A left fold by `and` from `1` over one-bit words that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- Under the precondition every edge's wrapped source index is in range: the kernel program's mask is all ones.
    At an edge the mask is the fold by `and`, from `1`, over the column's entries in that row; each entry is the
    conjunction of the two comparison bits of the wrapped word of SOME edge's source index (the broadcast column reads
    the wrapped vector at the row's coordinate, the broadcast constants read `0` and `99999`), which is `1` by the
    scalar fact at that edge's range. -/
theorem inRange_of_pre
    (x : FVec Ideal Cert.Pre_finite_inputs.S100000x128 .f32) (ei : IVec S2x1600000 32)
    (wl1 : FVec Ideal Cert.Pre_finite_inputs.S128x128 .f32) (b1 : FVec Ideal Cert.Pre_finite_inputs.S128 .f32)
    (wr1 wl2 : FVec Ideal Cert.Pre_finite_inputs.S128x128 .f32) (b2 : FVec Ideal Cert.Pre_finite_inputs.S128 .f32)
    (wr2 : FVec Ideal Cert.Pre_finite_inputs.S128x128 .f32)
    (h : Cert.Pre_finite_inputs.fn (F := Ideal) x ei wl1 b1 wr1 wl2 b2 wr2 = fun _ => 1#1) :
    inRange ei = fun _ => 1#1 := by
  have hsrc := src_range_of_pre x ei wl1 b1 wr1 wl2 b2 wr2 h
  funext j
  unfold inRange
  rw [Host.reduce_eq_foldl]
  refine foldl_andi_one _ _ (fun i _ => ?_)
  exact wrap_inRange (srcOf ei _) (hsrc _).1 (hsrc _).2

end Cert.KernelIdeal.Agg

end
-- ==== Proof.lean ====
/-
  Two GraphSAGE layers with mean aggregation, the kernel's program against the reference, over the extended reals.

  Per layer both compute, at node `p` and channel `q`, the three summands `∑ₖ a[p,k]·wl[q,k]`, `∑ₖ x[p,k]·wr[q,k]` and
  `b[q]`, where `a` is the mean over incoming edges of the source nodes' rows of `x`.  The kernel adds them as
  `(A + X) + b`, inside a Pallas region tiled over blocks of 5000 nodes; the reference as `(A + b) + X`, on whole arrays.
  Addition of extended reals is commutative and associative, so the two agree with no appeal to finiteness; the
  aggregation is the same function of the same operands on both sides, except that the kernel's gather of source rows
  replaces a row whose (wrapped) index is out of range by the not-a-number word where the reference's gather clamps the
  index.  The precondition's index conjunct, `−100000 ≤ src < 100000`, makes every wrapped index in range, and then the
  two gathers agree on every array.  The first layer's output passes through a maximum with zero on both sides.

  Modules: `Spec` (one layer as a whole-array function), `Aggregate` and `Model` (the aggregation and the two-layer
  function, over either gather), `KernelRegion` (each region's output array is the layer of its windows' arrays),
  `KernelHost`, `KernelHost1` (what the windows' arrays hold), `KernelRun`, `KernelValue` (the kernel program's run
  with its result named), `RefSide` (the reference's result is the two-layer function), `PreIndex` (the precondition
  puts every wrapped index in range).
-/
import proofs.«407156_j39496519254558_1_alg».proof.Defs
import proofs.«407156_j39496519254558_1_alg».proof.Proof.Gen.Kernel
import proofs.«407156_j39496519254558_1_alg».proof.Proof.Gen.Kernel.Skeleton
import proofs.«407156_j39496519254558_1_alg».proof.Proof.Gen.Kernel.Launch
import proofs.«407156_j39496519254558_1_alg».proof.Proof.Gen.Kernel.Points
import proofs.«407156_j39496519254558_1_alg».proof.Proof.Gen.Kernel.Frame
import proofs.«407156_j39496519254558_1_alg».proof.Proof.Gen.KernelIdeal
import proofs.«407156_j39496519254558_1_alg».proof.Proof.Gen.KernelIdeal.Skeleton
import proofs.«407156_j39496519254558_1_alg».proof.Proof.Gen.KernelIdeal.Launch
import proofs.«407156_j39496519254558_1_alg».proof.Proof.Gen.KernelIdeal.Points
import proofs.«407156_j39496519254558_1_alg».proof.Proof.Gen.KernelIdeal.Frame
import proofs.«407156_j39496519254558_1_alg».proof.Proof.Gen.ReferenceIdeal
import proofs.«407156_j39496519254558_1_alg».proof.Proof.Gen.ReferenceIdeal.Run
import proofs.«407156_j39496519254558_1_alg».proof.Proof.Gen.Pre_finite_inputs
import proofs.«407156_j39496519254558_1_alg».proof.Proof.KernelValue
import proofs.«407156_j39496519254558_1_alg».proof.Proof.RefSide
import proofs.«407156_j39496519254558_1_alg».proof.Proof.PreIndex
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the two-layer function over the plain gather, of the arguments: the kernel's because under
    the precondition its masked gather is the plain one, the reference's by the layer law. -/
theorem algebraic : Cert.algebraic_KernelIdeal_ReferenceIdeal := by
  intro m ρ m' ρ' hpre hagree
  refine ⟨fun c => Cert.KernelIdeal.Agg.twoLayer (Cert.KernelIdeal.Agg.gatherRows (F := Ideal))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Agg.twoLayer_take_eq_gather _ _ _ _ _ _ _ _
          (Cert.KernelIdeal.Agg.inRange_of_pre _ _ _ _ _ _ _ _ (hpre c))), (h c).2⟩)
      (Cert.KernelIdeal.ResultValue.run m ρ)
  · refine (θ_run Cert.ReferenceIdeal.defs _ _).mono (fun _ h c => ⟨(h c).1.trans ?_, (h c).2⟩)
      (Cert.ReferenceIdeal.Value.run (F := Ideal) m' ρ')
    unfold Cert.ReferenceIdeal.Value.res_main_v58
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
